-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x600000 : S_.BroadcastsInDim S2x600000 (![] : Fin 0 → Fin S2x600000.rank)
  reducesTo_S2x600000_S_d0_1 : S2x600000.ReducesTo [0, 1] S_

variable [Facts]

def fn_part1 {F : FTy → Type} [FloatOps F] (main_arg1 : IVec S2x600000 32) (main_arg5 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x600000 32 := broadcastInDim S2x600000 ![] bcast_S_S2x600000 main_c_8
  let main_v25 : IVec S2x600000 1 := cmpi .sge main_arg1 main_v24
  let main_c_9 : IVec S_ 1 := constantI S_ 1 1#1
  let main_v26 : IVec S_ 1 := (fun x v => Host.reduce IntOp.andi x v reducesTo_S2x600000_S_d0_1 h_S_) main_v25 main_c_9
  let main_v27 : IVec S_ 1 := andi main_v23 main_v26
  main_v27

def fn {F : FTy → Type} [FloatOps F] (main_arg0 : FVec F S100000x128 .f32) (main_arg1 : IVec S2x600000 32) (main_arg2 : FVec F S256x128 .f32) (main_arg3 : FVec F S256 .f32) (main_arg4 : FVec F S128x256 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg5 main_v13 main_v16
-- ==== Kernel.lean ====
abbrev S100000x128 : Shape := ⟨2, ![100000, 128]⟩
abbrev S2x600000 : Shape := ⟨2, ![2, 600000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S8192x128 : Shape := ⟨2, ![8192, 128]⟩
abbrev S8192x256 : Shape := ⟨2, ![8192, 256]⟩
abbrev S1x256 : Shape := ⟨2, ![1, 256]⟩
abbrev S1x128 : Shape := ⟨2, ![1, 128]⟩

abbrev nBuf : Space → Nat
  | .hbm => 51
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x128, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S600000x128, .f32⟩
  | .hbm, ⟨45, _⟩ => ⟨S600000x128, .bf16⟩
  | .hbm, ⟨46, _⟩ => ⟨S128x256, .f32⟩
  | .hbm, ⟨47, _⟩ => ⟨S128x256, .bf16⟩
  | .hbm, ⟨48, _⟩ => ⟨S256x128, .f32⟩
  | .hbm, ⟨49, _⟩ => ⟨S256x128, .bf16⟩
  | .hbm, ⟨50, _⟩ => ⟨S600000x128, .f32⟩
  | .local _ .vmem, ⟨0, _⟩ => ⟨S8192x128, .bf16⟩
  | .local _ .vmem, ⟨1, _⟩ => ⟨S8192x128, .bf16⟩
  | .local _ .vmem, ⟨2, _⟩ => ⟨S128x256, .bf16⟩
  | .local _ .vmem, ⟨3, _⟩ => ⟨S256, .f32⟩
  | .local _ .vmem, ⟨4, _⟩ => ⟨S256x128, .bf16⟩
  | .local _ .vmem, ⟨5, _⟩ => ⟨S128, .f32⟩
  | .local _ .vmem, ⟨6, _⟩ => ⟨S8192x128, .f32⟩
  | .local _ .vmem, ⟨7, _⟩ => ⟨S8192x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v5 : Ref sig .tc := ⟨.hbm, 25, rfl⟩
abbrev main_c_3 : Ref sig .tc := ⟨.hbm, 26, rfl⟩
abbrev main_v6 : Ref sig .tc := ⟨.hbm, 27, rfl⟩
abbrev main_v7 : Ref sig .tc := ⟨.hbm, 28, rfl⟩
abbrev main_c_4 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_5 : Ref sig .tc := ⟨.hbm, 35, rfl⟩
abbrev main_v13 : Ref sig .tc := ⟨.hbm, 36, rfl⟩
abbrev main_v14 : Ref sig .tc := ⟨.hbm, 37, rfl⟩
abbrev main_c_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 37], ![false, false]⟩

def cc0_transform_0 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.muli arg0 c37_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.muli arg0 c37_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  slices_S2x600000_S1x600000_1_0 : S2x600000.Slices ![1, 0] S1x600000
  bcast_S600000_S600000x1_0 : S600000.BroadcastsInDim S600000x1 (![0] : Fin 1 → Fin S600000x1.rank)
  bitsLt_bf16_f32 : FTy.bits .bf16 < FTy.bits .f32
  transposes_S256x128_S128x256_1_0 : S256x128.Transposes [1, 0] S128x256
  transposes_S128x256_S256x128_1_0 : S128x256.Transposes [1, 0] S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S8192x256 : S1x256.Broadcasts S8192x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  gather_S100000x128_S600000x1_S600000x128_1_0_n_n_0_1_1128_wf : GatherDims.WF S100000x128 S600000x1 S600000x128 [1] [0] [] [0] [] 1 ![1, 128]
  dot_S8192x128_S128x256_S8192x256_1_0_0_1_n_n_wf : DotDims.WF S8192x128 S128x256 S8192x256 [1] [0] [0] [1] [] []
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S600000x128.size a
  hwx0_0 : ∀ i : grid0.Coords, EltTy.bits .bf16 = 32 ∨ (Rect.unit (s := S600000x128) (fun a => cc0_transform_0 i a * S8192x128.size a) (fun a => (Pipeline.Clip.of (cc0_transform_0 i a) (S8192x128.size a) (S600000x128.size a)).extent (S8192x128.size a)) fun a => Pipeline.Clip.inb (Pipeline.Clip.ok_of (hstart0_0 i a))).WholeWords (EltTy.packing .bf16)
  hwxs0_0 : ∀ i : grid0.Coords, EltTy.bits .bf16 = 32 ∨ (Rect.unit (s := S8192x128) (fun _ => 0) (fun a => (Pipeline.Clip.of (cc0_transform_0 i a) (S8192x128.size a) (S600000x128.size a)).extent (S8192x128.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S8192x128.size a < S600000x128.size a
  hwx0_5 : ∀ i : grid0.Coords, EltTy.bits .f32 = 32 ∨ (Rect.unit (s := S600000x128) (fun a => cc0_transform_5 i a * S8192x128.size a) (fun a => (Pipeline.Clip.of (cc0_transform_5 i a) (S8192x128.size a) (S600000x128.size a)).extent (S8192x128.size a)) fun a => Pipeline.Clip.inb (Pipeline.Clip.ok_of (hstart0_5 i a))).WholeWords (EltTy.packing .f32)
  hwxs0_5 : ∀ i : grid0.Coords, EltTy.bits .f32 = 32 ∨ (Rect.unit (s := S8192x128) (fun _ => 0) (fun a => (Pipeline.Clip.of (cc0_transform_5 i a) (S8192x128.size a) (S600000x128.size a)).extent (S8192x128.size a)) fun a => (Nat.zero_add _).trans_le (Pipeline.Clip.extent_le (Pipeline.Clip.ok_of (hstart0_5 i a)))).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpecClip (Memref.whole main_v21) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v23) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v26) S8192x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x256 : Shape := ⟨2, ![1, 256]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x128, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S1x600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S600000x128, .f32⟩
  | .hbm, ⟨29, _⟩ => ⟨S128x256, .f32⟩
  | .hbm, ⟨30, _⟩ => ⟨S600000x256, .f32⟩
  | .hbm, ⟨31, _⟩ => ⟨S1x256, .f32⟩
  | .hbm, ⟨32, _⟩ => ⟨S600000x256, .f32⟩
  | .hbm, ⟨33, _⟩ => ⟨S600000x256, .f32⟩
  | .hbm, ⟨34, _⟩ => ⟨S_, .f32⟩
  | .hbm, ⟨35, _⟩ => ⟨S600000x256, .f32⟩
  | .hbm, ⟨36, _⟩ => ⟨S600000x256, .f32⟩
  | .hbm, ⟨37, _⟩ => ⟨S256x128, .f32⟩
  | .hbm, ⟨38, _⟩ => ⟨S600000x128, .f32⟩
  | .hbm, ⟨39, _⟩ => ⟨S1x128, .f32⟩
  | .hbm, ⟨40, _⟩ => ⟨S600000x128, .f32⟩
  | .hbm, ⟨41, _⟩ => ⟨S600000x128, .f32⟩
  | .hbm, ⟨42, _⟩ => ⟨S_, .f32⟩
  | .hbm, ⟨43, _⟩ => ⟨S600000x128, .f32⟩
  | .hbm, ⟨44, _⟩ => ⟨S600000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  transposes_S256x128_S128x256_1_0 : S256x128.Transposes [1, 0] S128x256
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  bcast_S_S600000x256 : S_.BroadcastsInDim S600000x256 (![] : Fin 0 → Fin S600000x256.rank)
  transposes_S128x256_S256x128_1_0 : S128x256.Transposes [1, 0] S256x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  gather_S100000x128_S600000x1_S600000x128_1_0_n_n_0_1_1128_wf : GatherDims.WF S100000x128 S600000x1 S600000x128 [1] [0] [] [0] [] 1 ![1, 128]
  dot_S600000x128_S128x256_S600000x256_1_0_0_1_n_n_wf : DotDims.WF S600000x128 S128x256 S600000x256 [1] [0] [0] [1] [] []
  dot_S600000x256_S256x128_S600000x128_1_0_0_1_n_n_wf : DotDims.WF S600000x256 S256x128 S600000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x256_S600000x256_1_0_0_1_n_n : DotDims S600000x128 S128x256 S600000x256 where
  lhsContracting := [1]
  rhsContracting := [0]
  lhsNonContracting := [0]
  rhsNonContracting := [1]
  lhsBatch := []
  rhsBatch := []
  wf := dot_S600000x128_S128x256_S600000x256_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf

class Facts : Prop extends Facts₀ where

variable [Facts]
-- ==== Proof.BodyK.lean ====
import proofs.«420868_j88742614270550_3_alg».proof.Proof.Gen.Kernel.Frame
import proofs.«420868_j88742614270550_3_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The rectangle of a whole 8192 × 128 buffer: the body's one store goes through it. -/
abbrev rS : Rect S8192x128 := Rect.unit (s := S8192x128) ![0, 0] S8192x128.size inb_S8192x128_S8192x128_0_0

/-- That one store covers its buffer. -/
theorem coverOut (p0 : Vec F S8192x128 .f32) (y : S8192x128.Idx) :
    ∃ pc ∈ ([⟨rS, p0⟩] : List (View.Piece (Elt F) S8192x128 .f32)), y ∈ pc.1.set :=
  View.cover_of_tiled [⟨rS, p0⟩] S8192x128.size (by rfl) y

set_option maxHeartbeats 1000000 in
/-- The kernel body on whole staging buffers.  It loads the five input buffers whole, computes the perceptron's
    block `k0_pay1` of them, and stores it whole into the result's buffer (whose prior contents it loads and drops):
    the inputs' buffers are left as they were and the result's holds that block.  At any float instance. -/
theorem sound_kernel (c : Dev nD) (E : Set ℕ) (i : grid0.Coords)
    (a2 : Memref sig .tc .vmem S8192x128 .bf16) (h2 : a2.IsWhole) (a3 : Memref sig .tc .vmem S128x256 .bf16) (h3 : a3.IsWhole)
    (a4 : Memref sig .tc .vmem S256 .f32) (h4 : a4.IsWhole) (a5 : Memref sig .tc .vmem S256x128 .bf16) (h5 : a5.IsWhole)
    (a6 : Memref sig .tc .vmem S128 .f32) (h6 : a6.IsWhole) (a7 : Memref sig .tc .vmem S8192x128 .f32) (h7 : a7.IsWhole)
    (x0 : Vec F S8192x128 .bf16) (x1 : Vec F S128x256 .bf16) (x2 : Vec F S256 .f32) (x3 : Vec F S256x128 .bf16) (x4 : Vec F S128 .f32)
    (K : PUnit → sProp 𝕄) :
    iprop(owns (c : Thread nD τ) a2 fullShare x0 ∗ owns (c : Thread nD τ) a3 fullShare x1 ∗ owns (c : Thread nD τ) a4 fullShare x2
          ∗ owns (c : Thread nD τ) a5 fullShare x3 ∗ owns (c : Thread nD τ) a6 fullShare x4 ∗ (∃ d, owns (c : Thread nD τ) a7 fullShare d)
        ∗ (iprop(owns (c : Thread nD τ) a2 fullShare x0 ∗ owns (c : Thread nD τ) a3 fullShare x1 ∗ owns (c : Thread nD τ) a4 fullShare x2
              ∗ owns (c : Thread nD τ) a5 fullShare x3 ∗ owns (c : Thread nD τ) a6 fullShare x4
              ∗ owns (c : Thread nD τ) a7 fullShare (k0_pay1 x0 x1 x2 x3 x4)) -∗ K ⟨⟩))
      ⊢ wp frame (wpE (defs₀ (F := F)) Variants.none c none) E (cc0__gin_mlp_kernel i a2 h2 a3 h3 a4 h4 a5 h5 a6 h6 a7 h7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz2 : (![0, 0] : Fin 2 → Nat) = fun _ => 0 := funext fun a => by fin_cases a <;> rfl
  have hz1 : (![0] : Fin 1 → Nat) = fun _ => 0 := funext fun a => by fin_cases a; rfl
  rw [View.read_writes_eq_canon _ _ _ (coverOut _), View.canon_unit_zero hz2]
  simp only [View.readAt_eq_ld, View.ld_unit_zero (S := S8192x128) hz2, View.ld_unit_zero (S := S128x256) hz2,
    View.ld_unit_zero (S := S256) hz1, View.ld_unit_zero (S := S256x128) hz2, View.ld_unit_zero (S := S128) hz1]

end Cert.Kernel.Hand

end
-- ==== Proof.FrameK.lean ====
import proofs.«420868_j88742614270550_3_alg».proof.Proof.Gen.Kernel.Frame
import proofs.«420868_j88742614270550_3_alg».proof.Proof.Gen.Kernel.Skeleton
import proofs.«420868_j88742614270550_3_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Relational proof data for the frame: the arrays as the region finds them, and of what the body leaves in any
    staging buffer nothing at all — the body reads no word to decide anything, so the run needs no contents. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem rA_eq (c : Dev nD) (w : Fin cfg0.W) : (rdat m c).A w = V m c (Pipeline.arrRef spec0 w) := by
  dsimp only [rdat]

/-- The body at any point, over the kernel function's call: the six current staging buffers are whole memrefs at
    arbitrary contents, so the kernel's run applies; it hands them back, the five inputs as found and the result at
    its payload, and of each the relation asks nothing. The invariant and the core's debts pass through unread. -/
theorem sound_body (c : Dev nD) (t : Fin cfg0.N)
    (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0)
        ∗ owns (c : Thread nD τ) (st0_1 t) fullShare (Y 1)
        ∗ owns (c : Thread nD τ) (st0_2 t) fullShare (Y 2)
        ∗ owns (c : Thread nD τ) (st0_3 t) fullShare (Y 3)
        ∗ owns (c : Thread nD τ) (st0_4 t) fullShare (Y 4)
        ∗ owns (c : Thread nD τ) (st0_5 t) fullShare (Y 5))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X)
            ∗ (∃ X, ⌜(rdat m c).after 3 t (Y 3) X⌝ ∗ owns (c : Thread nD τ) (st0_3 t) fullShare X)
            ∗ (∃ X, ⌜(rdat m c).after 4 t (Y 4) X⌝ ∗ owns (c : Thread nD τ) (st0_4 t) fullShare X)
            ∗ (∃ X, ⌜(rdat m c).after 5 t (Y 5) X⌝ ∗ owns (c : Thread nD τ) (st0_5 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5⟩
  iapply (sound_kernel c Set.univ (grid0.coords t) _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  iexists (k0_pay1 (Y 0) (Y 1) (Y 2) (Y 3) (Y 4)); isplitr; · ipureintro; trivial
  iexact H5

theorem body_obligation (c : Dev nD) : (rdat m c).BodyObligation (defs₀ (F := F)) Variants.none () Set.univ := by
  intro t Y _
  rw [bigSep_W0, bigSep_W0]
  exact sound_body m c t Y

set_option backward.isDefEq.respectTransparency.types false in
/-- From any memory with zero counters every weakly fair execution of the program on the TensorCores terminates, and
    at the end every windowed array holds contents it may hold after the write-backs (an input its entry contents)
    and every other unscoped buffer what the region found in it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := rA_eq m) (hΦ := fun _ _ => rfl)

/-- The word-level kernel runs to the end, faults nowhere, and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 2 rfl).trans ((rA_eq m c 2).trans (V_main_arg3 m c)),
      ((h c).2 main_arg4 (Pipeline.mem_restRefs_of main_arg4 (by decide) (by decide))).trans (V_main_arg4 m c),
      (Pipeline.RDat.FramePost.arr_in h c 4 rfl).trans ((rA_eq m c 4).trans (V_main_arg5 m c))⟩) (run_main m ρ)

end Cert.Kernel.Hand

end
-- ==== Proof.BodyI.lean ====
import proofs.«420868_j88742614270550_3_alg».proof.Proof.Gen.KernelIdeal.Frame
import proofs.«420868_j88742614270550_3_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The rectangle of a whole 8192 × 128 buffer: the body's one store goes through it. -/
abbrev rS : Rect S8192x128 := Rect.unit (s := S8192x128) ![0, 0] S8192x128.size inb_S8192x128_S8192x128_0_0

/-- That one store covers its buffer. -/
theorem coverOut (p0 : Vec F S8192x128 .f32) (y : S8192x128.Idx) :
    ∃ pc ∈ ([⟨rS, p0⟩] : List (View.Piece (Elt F) S8192x128 .f32)), y ∈ pc.1.set :=
  View.cover_of_tiled [⟨rS, p0⟩] S8192x128.size (by rfl) y

set_option maxHeartbeats 1000000 in
/-- The kernel body on whole staging buffers.  It loads the five input buffers whole, computes the perceptron's
    block `k0_pay1` of them, and stores it whole into the result's buffer (whose prior contents it loads and drops):
    the inputs' buffers are left as they were and the result's holds that block.  At any float instance. -/
theorem sound_kernel (c : Dev nD) (E : Set ℕ) (i : grid0.Coords)
    (a2 : Memref sig .tc .vmem S8192x128 .bf16) (h2 : a2.IsWhole) (a3 : Memref sig .tc .vmem S128x256 .bf16) (h3 : a3.IsWhole)
    (a4 : Memref sig .tc .vmem S256 .f32) (h4 : a4.IsWhole) (a5 : Memref sig .tc .vmem S256x128 .bf16) (h5 : a5.IsWhole)
    (a6 : Memref sig .tc .vmem S128 .f32) (h6 : a6.IsWhole) (a7 : Memref sig .tc .vmem S8192x128 .f32) (h7 : a7.IsWhole)
    (x0 : Vec F S8192x128 .bf16) (x1 : Vec F S128x256 .bf16) (x2 : Vec F S256 .f32) (x3 : Vec F S256x128 .bf16) (x4 : Vec F S128 .f32)
    (K : PUnit → sProp 𝕄) :
    iprop(owns (c : Thread nD τ) a2 fullShare x0 ∗ owns (c : Thread nD τ) a3 fullShare x1 ∗ owns (c : Thread nD τ) a4 fullShare x2
          ∗ owns (c : Thread nD τ) a5 fullShare x3 ∗ owns (c : Thread nD τ) a6 fullShare x4 ∗ (∃ d, owns (c : Thread nD τ) a7 fullShare d)
        ∗ (iprop(owns (c : Thread nD τ) a2 fullShare x0 ∗ owns (c : Thread nD τ) a3 fullShare x1 ∗ owns (c : Thread nD τ) a4 fullShare x2
              ∗ owns (c : Thread nD τ) a5 fullShare x3 ∗ owns (c : Thread nD τ) a6 fullShare x4
              ∗ owns (c : Thread nD τ) a7 fullShare (k0_pay1 x0 x1 x2 x3 x4)) -∗ K ⟨⟩))
      ⊢ wp frame (wpE (defs₀ (F := F)) Variants.none c none) E (cc0__gin_mlp_kernel i a2 h2 a3 h3 a4 h4 a5 h5 a6 h6 a7 h7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz2 : (![0, 0] : Fin 2 → Nat) = fun _ => 0 := funext fun a => by fin_cases a <;> rfl
  have hz1 : (![0] : Fin 1 → Nat) = fun _ => 0 := funext fun a => by fin_cases a; rfl
  rw [View.read_writes_eq_canon _ _ _ (coverOut _), View.canon_unit_zero hz2]
  simp only [View.readAt_eq_ld, View.ld_unit_zero (S := S8192x128) hz2, View.ld_unit_zero (S := S128x256) hz2,
    View.ld_unit_zero (S := S256) hz1, View.ld_unit_zero (S := S256x128) hz2, View.ld_unit_zero (S := S128) hz1]

end Cert.KernelIdeal.Hand

end
-- ==== Proof.Spec.lean ====
/-
  The mathematics both programs compute, on the extended reals.

  One edge's feature row `s` (128 numbers: the sum of its two endpoint rows) goes through a two-layer
  perceptron: a hidden row `h k = max (∑ j, s j * w1 j k + b1 k) 0` of 256 numbers, then an output row
  `o q = ∑ k, h k * w2 k q + b2 q` of 128 numbers, scaled by one half.  `mlp` is that function of one row;
  `G` applies it to every row of a 600000-row array.  Nothing else is needed of the arithmetic: both programs
  compute these very sums and products in this very order of operands, so no algebraic law (and no finiteness)
  enters; the two literals (one half, zero) are kept as the bit patterns both programs print.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- One row through the perceptron, at output column `q`:
    `½ · ((∑ k, max ((∑ j, s j · w1 j k) + b1 k) 0 · w2 k q) + b2 q)`. -/
def mlp (s : Fin 128 → EReal) (w1 : Fin 128 → Fin 256 → EReal) (b1 : Fin 256 → EReal)
    (w2 : Fin 256 → Fin 128 → EReal) (b2 : Fin 128 → EReal) (q : Fin 128) : EReal :=
  Ideal.ofBits .f32 0x3F000000#32 *
    ((∑ k : Fin 256, max ((∑ j : Fin 128, s j * w1 j k) + b1 k) (Ideal.ofBits .f32 0x00000000#32) * w2 k q) + b2 q)

/-- The perceptron's value at a row depends on that row alone: two rows that agree give the same output. -/
theorem mlp_congr {s s' : Fin 128 → EReal} (h : ∀ j, s j = s' j) (w1 : Fin 128 → Fin 256 → EReal) (b1 : Fin 256 → EReal)
    (w2 : Fin 256 → Fin 128 → EReal) (b2 : Fin 128 → EReal) (q : Fin 128) : mlp s w1 b1 w2 b2 q = mlp s' w1 b1 w2 b2 q := by
  rw [show s = s' from funext h]

/-- The whole result: row `i 0` of `S` through the perceptron with the weights `W1T` (128 × 256), `W2T` (256 × 128)
    and the biases, at column `i 1`. -/
def G (S : (⟨2, ![600000, 128]⟩ : Shape).Idx → EReal) (W1T : (⟨2, ![128, 256]⟩ : Shape).Idx → EReal)
    (b1 : (⟨1, ![256]⟩ : Shape).Idx → EReal) (W2T : (⟨2, ![256, 128]⟩ : Shape).Idx → EReal)
    (b2 : (⟨1, ![128]⟩ : Shape).Idx → EReal) : (⟨2, ![600000, 128]⟩ : Shape).Idx → EReal :=
  fun i => mlp (fun j => S (ix2 (i 0) j)) (fun j k => W1T (ix2 j k)) (fun k => b1 (ix1 k))
    (fun k q => W2T (ix2 k q)) (fun q => b2 (ix1 q)) (i 1)

end Cert.Spec

end
-- ==== Proof.PayI.lean ====
import proofs.«420868_j88742614270550_3_alg».proof.Proof.Gen.KernelIdeal.Skeleton
import proofs.«420868_j88742614270550_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## The two products' operand indices, axis by axis -/

theorem lhs_hidden_0 (i : S8192x256.Idx) (c : dot_S8192x128_S128x256_S8192x256_1_0_0_1_n_n.contr.Idx) :
    (dot_S8192x128_S128x256_S8192x256_1_0_0_1_n_n.lhsIdx i c 0).val = (i 0).val := by
  unfold DotDims.lhsIdx
  rw [dif_neg (show ¬(0 : Fin S8192x128.rank) ∈ dot_S8192x128_S128x256_S8192x256_1_0_0_1_n_n.lhsBatch by decide), dif_pos (show (0 : Fin S8192x128.rank) ∈ dot_S8192x128_S128x256_S8192x256_1_0_0_1_n_n.lhsNonContracting by decide)]
  rfl
theorem lhs_hidden_1 (i : S8192x256.Idx) (c : dot_S8192x128_S128x256_S8192x256_1_0_0_1_n_n.contr.Idx) :
    (dot_S8192x128_S128x256_S8192x256_1_0_0_1_n_n.lhsIdx i c 1).val = (c ⟨0, by decide⟩).val :=
  dot_S8192x128_S128x256_S8192x256_1_0_0_1_n_n.lhsIdx_val_of_single rfl i c
theorem rhs_hidden_0 (i : S8192x256.Idx) (c : dot_S8192x128_S128x256_S8192x256_1_0_0_1_n_n.contr.Idx) :
    (dot_S8192x128_S128x256_S8192x256_1_0_0_1_n_n.rhsIdx i c 0).val = (c ⟨0, by decide⟩).val :=
  dot_S8192x128_S128x256_S8192x256_1_0_0_1_n_n.rhsIdx_val_of_single rfl i c
theorem rhs_hidden_1 (i : S8192x256.Idx) (c : dot_S8192x128_S128x256_S8192x256_1_0_0_1_n_n.contr.Idx) :
    (dot_S8192x128_S128x256_S8192x256_1_0_0_1_n_n.rhsIdx i c 1).val = (i 1).val := by
  unfold DotDims.rhsIdx
  rw [dif_neg (show ¬(1 : Fin S128x256.rank) ∈ dot_S8192x128_S128x256_S8192x256_1_0_0_1_n_n.rhsBatch by decide), dif_pos (show (1 : Fin S128x256.rank) ∈ dot_S8192x128_S128x256_S8192x256_1_0_0_1_n_n.rhsNonContracting by decide)]
  rfl

theorem lhs_output_0 (i : S8192x128.Idx) (c : dot_S8192x256_S256x128_S8192x128_1_0_0_1_n_n.contr.Idx) :
    (dot_S8192x256_S256x128_S8192x128_1_0_0_1_n_n.lhsIdx i c 0).val = (i 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl
theorem lhs_output_1 (i : S8192x128.Idx) (c : dot_S8192x256_S256x128_S8192x128_1_0_0_1_n_n.contr.Idx) :
    (dot_S8192x256_S256x128_S8192x128_1_0_0_1_n_n.lhsIdx i c 1).val = (c ⟨0, by decide⟩).val :=
  dot_S8192x256_S256x128_S8192x128_1_0_0_1_n_n.lhsIdx_val_of_single rfl i c
theorem rhs_output_0 (i : S8192x128.Idx) (c : dot_S8192x256_S256x128_S8192x128_1_0_0_1_n_n.contr.Idx) :
    (dot_S8192x256_S256x128_S8192x128_1_0_0_1_n_n.rhsIdx i c 0).val = (c ⟨0, by decide⟩).val :=
  dot_S8192x256_S256x128_S8192x128_1_0_0_1_n_n.rhsIdx_val_of_single rfl i c
theorem rhs_output_1 (i : S8192x128.Idx) (c : dot_S8192x256_S256x128_S8192x128_1_0_0_1_n_n.contr.Idx) :
    (dot_S8192x256_S256x128_S8192x128_1_0_0_1_n_n.rhsIdx i c 1).val = (i 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl

/-! ## Each product read at a row and a column -/

/-- The first product at row `p`, column `k`: the row's 128 numbers against column `k` of the 128 × 256 matrix. -/
theorem hidden_apply (a : FVec Ideal S8192x128 .bf16) (b : FVec Ideal S128x256 .bf16) (p : Fin 8192) (k : Fin 256) :
    matmul dot_S8192x128_S128x256_S8192x256_1_0_0_1_n_n none a b (constant (F := Ideal) S8192x256 .f32 0x00000000#32) (ix2 p k)
      = ∑ j : Fin 128, a (ix2 p j) * b (ix2 j k) := by
  simp only [matmul]
  rw [Ideal.matmul_constant_zero_apply, ← Equiv.sum_comp (contrEquiv1 dot_S8192x128_S128x256_S8192x256_1_0_0_1_n_n 128 rfl rfl).symm]
  refine Finset.sum_congr rfl fun j _ => ?_
  have hj := contrEquiv1_symm_val dot_S8192x128_S128x256_S8192x256_1_0_0_1_n_n 128 rfl rfl j
  have el : dot_S8192x128_S128x256_S8192x256_1_0_0_1_n_n.lhsIdx (ix2 p k) ((contrEquiv1 dot_S8192x128_S128x256_S8192x256_1_0_0_1_n_n 128 rfl rfl).symm j) = ix2 p j := funext fun a => Fin.ext (by
    match a with
    | ⟨0, _⟩ => exact lhs_hidden_0 _ _
    | ⟨1, _⟩ => exact (lhs_hidden_1 _ _).trans hj)
  have er : dot_S8192x128_S128x256_S8192x256_1_0_0_1_n_n.rhsIdx (ix2 p k) ((contrEquiv1 dot_S8192x128_S128x256_S8192x256_1_0_0_1_n_n 128 rfl rfl).symm j) = ix2 j k := funext fun a => Fin.ext (by
    match a with
    | ⟨0, _⟩ => exact (rhs_hidden_0 _ _).trans hj
    | ⟨1, _⟩ => exact rhs_hidden_1 _ _)
  rw [el, er]

/-- The second product at row `p`, column `k`: the hidden row's 256 numbers against column `k` of the 256 × 128 matrix. -/
theorem output_apply (a : FVec Ideal S8192x256 .bf16) (b : FVec Ideal S256x128 .bf16) (p : Fin 8192) (k : Fin 128) :
    matmul dot_S8192x256_S256x128_S8192x128_1_0_0_1_n_n none a b (constant (F := Ideal) S8192x128 .f32 0x00000000#32) (ix2 p k)
      = ∑ j : Fin 256, a (ix2 p j) * b (ix2 j k) := by
  simp only [matmul]
  rw [Ideal.matmul_constant_zero_apply, ← Equiv.sum_comp (contrEquiv1 dot_S8192x256_S256x128_S8192x128_1_0_0_1_n_n 256 rfl rfl).symm]
  refine Finset.sum_congr rfl fun j _ => ?_
  have hj := contrEquiv1_symm_val dot_S8192x256_S256x128_S8192x128_1_0_0_1_n_n 256 rfl rfl j
  have el : dot_S8192x256_S256x128_S8192x128_1_0_0_1_n_n.lhsIdx (ix2 p k) ((contrEquiv1 dot_S8192x256_S256x128_S8192x128_1_0_0_1_n_n 256 rfl rfl).symm j) = ix2 p j := funext fun a => Fin.ext (by
    match a with
    | ⟨0, _⟩ => exact lhs_output_0 _ _
    | ⟨1, _⟩ => exact (lhs_output_1 _ _).trans hj)
  have er : dot_S8192x256_S256x128_S8192x128_1_0_0_1_n_n.rhsIdx (ix2 p k) ((contrEquiv1 dot_S8192x256_S256x128_S8192x128_1_0_0_1_n_n 256 rfl rfl).symm j) = ix2 j k := funext fun a => Fin.ext (by
    match a with
    | ⟨0, _⟩ => exact (rhs_output_0 _ _).trans hj
    | ⟨1, _⟩ => exact rhs_output_1 _ _)
  rw [el, er]

/-! ## Each bias, spread over the rows, read at a row and a column -/

/-- The first bias as a one-row array repeated down 8192 rows reads, at any row, its entry of that column. -/
theorem bias1_apply (b : FVec Ideal S256 .f32) (p : Fin 8192) (k : Fin 256) :
    broadcastTo S8192x256 (shapeCast S1x256 b shapeCasts_S256_S1x256) broadcasts_S1x256_S8192x256 (ix2 p k) = b (ix1 k) := by
  rw [broadcastTo_apply _ broadcasts_S1x256_S8192x256 (ix2 p k) (ix2 (⟨0, Nat.one_pos⟩ : Fin 1) k) (fun a => match a with
    | ⟨0, _⟩ => rfl
    | ⟨1, _⟩ => rfl)]
  rw [shapeCast_addUnit_apply]
  exact congrArg b (funext fun a => match a with | ⟨0, _⟩ => rfl)

/-- The second bias likewise. -/
theorem bias2_apply (b : FVec Ideal S128 .f32) (p : Fin 8192) (k : Fin 128) :
    broadcastTo S8192x128 (shapeCast S1x128 b shapeCasts_S128_S1x128) broadcasts_S1x128_S8192x128 (ix2 p k) = b (ix1 k) := by
  rw [broadcastTo_apply _ broadcasts_S1x128_S8192x128 (ix2 p k) (ix2 (⟨0, Nat.one_pos⟩ : Fin 1) k) (fun a => match a with
    | ⟨0, _⟩ => rfl
    | ⟨1, _⟩ => rfl)]
  rw [shapeCast_addUnit_apply]
  exact congrArg b (funext fun a => match a with | ⟨0, _⟩ => rfl)

/-- The body's block at row `r`, column `q`, on the extended reals: the perceptron of row `r` of the edge block. -/
theorem pay_apply (x0 : FVec Ideal S8192x128 .bf16) (x1 : FVec Ideal S128x256 .bf16) (x2 : FVec Ideal S256 .f32)
    (x3 : FVec Ideal S256x128 .bf16) (x4 : FVec Ideal S128 .f32) (r : Fin 8192) (q : Fin 128) :
    k0_pay1 (F := Ideal) x0 x1 x2 x3 x4 (ix2 r q)
      = Cert.Spec.mlp (fun j => x0 (ix2 r j)) (fun j k => x1 (ix2 j k)) (fun k => x2 (ix1 k))
          (fun k q' => x3 (ix2 k q')) (fun q' => x4 (ix1 q')) q := by
  -- the body's term, read at the index: every elementwise operation reads through, each product is its sum over
  -- the contracted coordinate, each bias its entry of the column, and a shape cast to the same shape is the identity
  unfold k0_pay1
  simp only [mulf_apply, addf_apply, broadcast_apply, maximumf_apply, truncf_apply, output_apply, hidden_apply,
    bias1_apply, bias2_apply, shapeCast_self]
  -- what is left is the specification's own expression; the two literals are the extended reals their words encode
  rfl

end Cert.KernelIdeal.Hand

end
-- ==== Proof.RunI.lean ====
import proofs.«420868_j88742614270550_3_alg».proof.Proof.Gen.KernelIdeal.Frame
import proofs.«420868_j88742614270550_3_alg».proof.Proof.Gen.KernelIdeal.Skeleton
import proofs.«420868_j88742614270550_3_alg».proof.Proof.BodyI
import proofs.«420868_j88742614270550_3_alg».proof.Proof.PayI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ) (ρ : Dev nD → PrngReg)

/-- The edge window's staging buffer as the proof data name it after the body at point `t`: the block's rows
    inside the array (all 8192 at every point but the last, 1984 there), and zero on the rows past the array's
    end, which nothing reads back. -/
def sblk (c : Dev nD) (t : Fin cfg0.N) : Vec Ideal S8192x128 .bf16 :=
  win0_0.fill (grid0.coords t) (fun _ => (0 : EReal)) (iblk m c 0 t)

/-- The proof data: the arrays as the region finds them; after the body the edge window's buffer at `sblk`, the
    weights' and biases' buffers at their blocks, and the result's at the perceptron's block of those. -/
def dats (_ : Fin 1) (c : Dev nD) : Dat τ (Elt Ideal) Unit ℕ (UR sig nD τ) ℕ cfg0 c where
  A w := V m c (Pipeline.arrRef spec0 w)
  after w t := match w with
    | ⟨0, _⟩ => sblk m c t
    | ⟨1, _⟩ => iblk m c 1 t
    | ⟨2, _⟩ => iblk m c 2 t
    | ⟨3, _⟩ => iblk m c 3 t
    | ⟨4, _⟩ => iblk m c 4 t
    | ⟨5, _⟩ => k0_pay1 (F := Ideal) (sblk m c t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = sblk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = k0_pay1 (F := Ideal) (sblk m c t) (iblk m c 1 t) (iblk m c 2 t) (iblk m c 3 t) (iblk m c 4 t) := by dsimp only [dats]

/-! ## What each staging buffer holds when the body runs -/

/-- The weights' and biases' buffers hold their whole arrays at every point: fetched at the first point, and the
    body leaves them as it found them. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The edge window is fetched at every point: its buffer holds the block's rows inside the array, and on the
    rows past the array's end whatever `d` the buffer held. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]; try rfl

/-- The result window is an output: no point fetches it. -/
theorem fetch0_5 (t : Fin cfg0.N) : (cfg0.win 5).fetch t = false := rfl

/-- The result window is written back at every point, so at every point its buffer holds contents nothing names:
    at the first point what it held at launch, later what the previous point's write-back left. -/
theorem before0_5 (c : Dev nD) (t : Fin cfg0.N) (d) : (dats m 0 c).before 5 t d = d := by
  unfold Dat.before
  rw [if_neg (by rw [fetch0_5 t]; exact Bool.false_ne_true)]
  by_cases h : t.val = 0
  · rw [if_pos h]
  · rw [if_neg h]; exact if_pos (flush0_5 _)

/-! ## The result's rows inside the array do not see the edge buffer's rows past it -/

/-- At an index the transfer moves, a filled block holds the moved part, whatever lay beneath. -/
theorem fill_indep {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- Row `r` of the perceptron's block depends on row `r` of the edge block only. The edge window and the result
    window have the same index map, block sizes and cut, so a row of the result that the write-back moves is a
    row of the edge block that the fetch moved: there the edge buffer holds the array's row whatever filled the
    buffer's other rows, and the two perceptron blocks agree on every row inside the array. -/
theorem cut_pay (i : grid0.Coords) (d d' : Vec Ideal S8192x128 .bf16) (g : (win0_0.xblock i).Idx → EReal)
    (x1 : FVec Ideal S128x256 .bf16) (x2 : FVec Ideal S256 .f32) (x3 : FVec Ideal S256x128 .bf16) (x4 : FVec Ideal S128 .f32) :
    win0_5.cut i (k0_pay1 (F := Ideal) (win0_0.fill i d g) x1 x2 x3 x4)
      = win0_5.cut i (k0_pay1 (F := Ideal) (win0_0.fill i d' g) x1 x2 x3 x4) := by
  funext j
  have hr : (j 0).val < 8192 := Nat.lt_of_lt_of_le (j 0).isLt (win0_5.xsize_le i 0)
  have hq : (j 1).val < 128 := Nat.lt_of_lt_of_le (j 1).isLt (win0_5.xsize_le i 1)
  -- the moved index, by its row and its column
  have hj : win0_5.xinj i j = ix2 (⟨(j 0).val, hr⟩ : Fin 8192) (⟨(j 1).val, hq⟩ : Fin 128) := by
    funext a; match a with
    | ⟨0, _⟩ => rfl
    | ⟨1, _⟩ => rfl
  show k0_pay1 (F := Ideal) (win0_0.fill i d g) x1 x2 x3 x4 (win0_5.xinj i j)
    = k0_pay1 (F := Ideal) (win0_0.fill i d' g) x1 x2 x3 x4 (win0_5.xinj i j)
  rw [hj, pay_apply, pay_apply]
  refine Cert.Spec.mlp_congr (fun k => ?_) _ _ _ _ _
  -- entry (row, k) of the edge block is moved: the row is below the result's cut, which is the edge window's; the
  -- column axis is not cut
  refine fill_indep win0_0 i d d' g _ ((win0_0.moved_iff i _).mpr fun a => ?_)
  match a with
  | ⟨0, _⟩ => exact (j 0).isLt
  | ⟨1, _⟩ => exact k.isLt

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the two cut windows' buffers stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare
        (win0_5.fill (grid0.coords t) d (win0_5.cut (grid0.coords t) ((dats m 0 c).after 5 t)))))

/-- The body at any point. The edge buffer arrives holding the block's rows inside the array over some `d0`, the
    weights' and biases' buffers their arrays, the result's anything; the body leaves the first five as they
    were and the result's at the perceptron's block `X5` of them. The edge buffer is handed back over the same
    `d0`; the result's over `X5` itself, which on the rows inside the array is the block the proof data name
    (`cut_pay`: those rows do not see `d0`). The invariant and the core's debt pass through unread. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel (F := Ideal) c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [show win0_0.cut (grid0.coords t) (sblk m c t) = iblk m c 0 t from win0_0.cut_fill _ _ _]
    iexact H0
  isplitl [H1]; · iexact H1
  isplitl [H2]; · iexact H2
  isplitl [H3]; · iexact H3
  isplitl [H4]; · iexact H4
  iexists (k0_pay1 (F := Ideal) (win0_0.fill (grid0.coords t) d0 (iblk m c 0 t)) (iblk m c 1 t) (iblk m c 2 t) (iblk m c 3 t) (iblk m c 4 t))
  have h5 : win0_5.cut (grid0.coords t) (k0_pay1 (F := Ideal) (win0_0.fill (grid0.coords t) d0 (iblk m c 0 t)) (iblk m c 1 t) (iblk m c 2 t) (iblk m c 3 t) (iblk m c 4 t))
      = win0_5.cut (grid0.coords t) (k0_pay1 (F := Ideal) (sblk m c t) (iblk m c 1 t) (iblk m c 2 t) (iblk m c 3 t) (iblk m c 4 t)) :=
    cut_pay (grid0.coords t) d0 (fun _ => (0 : EReal)) (iblk m c 0 t) (iblk m c 1 t) (iblk m c 2 t) (iblk m c 3 t) (iblk m c 4 t)
  rw [win0_5.fill_congr_cut (grid0.coords t) h5]
  iexact H5

/-- The library's body obligation in its loose form (the edge window and the result window are cut at the array's end). -/
theorem body_obligation (c : Dev nD) : BodyObligationLoose (dats m 0 c) (defs₀ (F := Ideal)) Variants.none () Set.univ := by
  intro t
  rw [bigSep_W0, bigSep_W0]
  exact sound_body m c t

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The idealized kernel runs to the end, faults nowhere, and leaves its six argument arrays as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.FinalI.lean ====
import proofs.«420868_j88742614270550_3_alg».proof.Proof.Gen.KernelIdeal.Frame
import proofs.«420868_j88742614270550_3_alg».proof.Proof.Gen.KernelIdeal.Skeleton
import proofs.«420868_j88742614270550_3_alg».proof.Proof.RunI
import proofs.«420868_j88742614270550_3_alg».proof.Proof.PayI
import proofs.«420868_j88742614270550_3_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Idealize.ShloMosaic.ValueIdx

variable (m : (ℓ : Loc nD τ sig) → Buf (Elt Ideal) ℓ) (ρ : Dev nD → PrngReg)

/-! ## The printed index maps, decided once over the 74 grid points -/

/-- The edge window and the result window move together: at point `t` both are on block row `t` (block column 0),
    and both are cut to the rows inside the array, `min 8192 (600000 - 8192 t)` of them (all 8192 but at the last
    point, 1984 there), over all 128 columns. -/
theorem idx_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_5.xsize (grid0.coords t) (0 : Fin 2) = min 8192 (600000 - t.val * 8192) ∧ win0_5.xsize (grid0.coords t) (1 : Fin 2) = 128
    ∧ win0_0.xsize (grid0.coords t) (0 : Fin 2) = min 8192 (600000 - t.val * 8192) ∧ win0_0.xsize (grid0.coords t) (1 : Fin 2) = 128 :=
  (by decide +kernel : ∀ t : Fin grid0.N, _)

/-- The weights' and biases' windows stay on block 0 of their arrays at every point. -/
theorem idx_whole : ∀ t : Fin cfg0.N, win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-! ## The blocks, element by element

A block's coordinate in its array is block index × block size + the coordinate inside the block. The weights' and
biases' blocks are the whole arrays at block index 0, so an element of the block is the array's element at the same
index; an element of the edge block in a row below the cut is the edge array's element `8192 t` rows further down. -/

/-- The first weight matrix's block is the matrix. -/
theorem iblk1_apply (c : Dev nD) (t : Fin cfg0.N) (j : Fin 128) (k : Fin 256) :
    iblk m c 1 t (ix2 j k) = V m c main_v23 (ix2 j k) := by
  obtain ⟨e0, e1, -⟩ := idx_whole t
  unfold iblk
  rw [View.read_apply]
  show V m c main_v23 (((cfg0.win 1).blk t).view.emb (ix2 j k)) = V m c main_v23 (ix2 j k)
  refine congrArg _ ?_
  funext a; apply Fin.ext
  match a with
  | ⟨0, _⟩ => show win0_1.index t (0 : Fin 2) * 128 + 1 * j.val = j.val; omega
  | ⟨1, _⟩ => show win0_1.index t (1 : Fin 2) * 256 + 1 * k.val = k.val; omega

/-- The first bias's block is the bias. -/
theorem iblk2_apply (c : Dev nD) (t : Fin cfg0.N) (k : Fin 256) :
    iblk m c 2 t (ix1 k) = V m c main_arg3 (ix1 k) := by
  obtain ⟨-, -, e0, -⟩ := idx_whole t
  unfold iblk
  rw [View.read_apply]
  show V m c main_arg3 (((cfg0.win 2).blk t).view.emb (ix1 k)) = V m c main_arg3 (ix1 k)
  refine congrArg _ ?_
  funext a; apply Fin.ext
  match a with
  | ⟨0, _⟩ => show win0_2.index t (0 : Fin 1) * 256 + 1 * k.val = k.val; omega

/-- The second weight matrix's block is the matrix. -/
theorem iblk3_apply (c : Dev nD) (t : Fin cfg0.N) (k : Fin 256) (q : Fin 128) :
    iblk m c 3 t (ix2 k q) = V m c main_v25 (ix2 k q) := by
  obtain ⟨-, -, -, e0, e1, -⟩ := idx_whole t
  unfold iblk
  rw [View.read_apply]
  show V m c main_v25 (((cfg0.win 3).blk t).view.emb (ix2 k q)) = V m c main_v25 (ix2 k q)
  refine congrArg _ ?_
  funext a; apply Fin.ext
  match a with
  | ⟨0, _⟩ => show win0_3.index t (0 : Fin 2) * 256 + 1 * k.val = k.val; omega
  | ⟨1, _⟩ => show win0_3.index t (1 : Fin 2) * 128 + 1 * q.val = q.val; omega

/-- The second bias's block is the bias. -/
theorem iblk4_apply (c : Dev nD) (t : Fin cfg0.N) (q : Fin 128) :
    iblk m c 4 t (ix1 q) = V m c main_arg5 (ix1 q) := by
  obtain ⟨-, -, -, -, -, e0⟩ := idx_whole t
  unfold iblk
  rw [View.read_apply]
  show V m c main_arg5 (((cfg0.win 4).blk t).view.emb (ix1 q)) = V m c main_arg5 (ix1 q)
  refine congrArg _ ?_
  funext a; apply Fin.ext
  match a with
  | ⟨0, _⟩ => show win0_4.index t (0 : Fin 1) * 128 + 1 * q.val = q.val; omega

/-- The edge window's buffer after the body at point `t`, in a row `r` below the cut: that row was fetched, so it
    holds the edge array's row `8192 t + r`. -/
theorem sblk_apply (c : Dev nD) (t : Fin cfg0.N) (r : Fin 8192) (q : Fin 128) (i : Fin 600000)
    (hr : r.val < min 8192 (600000 - t.val * 8192)) (hi : i.val = t.val * 8192 + r.val) :
    sblk m c t (ix2 r q) = V m c main_v21 (ix2 i q) := by
  obtain ⟨-, -, e0, e1, -, -, x0, x1⟩ := idx_facts t
  have hmv : win0_0.moved (grid0.coords t) (ix2 r q) = true := by
    rw [Window.moved_iff]
    intro a
    match a with
    | ⟨0, _⟩ => exact lt_of_lt_of_eq hr x0.symm
    | ⟨1, _⟩ => exact lt_of_lt_of_eq q.isLt x1.symm
  unfold sblk Window.fill
  rw [dif_pos hmv]
  unfold iblk
  rw [View.read_apply]
  show V m c main_v21 (((cfg0.win 0).blk t).view.emb _) = V m c main_v21 (ix2 i q)
  refine congrArg _ ?_
  funext a; apply Fin.ext
  match a with
  | ⟨0, _⟩ => show win0_0.index t (0 : Fin 2) * 8192 + 1 * r.val = i.val; omega
  | ⟨1, _⟩ => show win0_0.index t (1 : Fin 2) * 128 + 1 * q.val = q.val; omega

/-- The perceptron's value at a column depends on its six arguments pointwise. -/
theorem mlp_congr6 {s s' : Fin 128 → EReal} {w1 w1' : Fin 128 → Fin 256 → EReal} {b1 b1' : Fin 256 → EReal}
    {w2 w2' : Fin 256 → Fin 128 → EReal} {b2 b2' : Fin 128 → EReal} {q q' : Fin 128}
    (hs : ∀ j, s j = s' j) (h1 : ∀ j k, w1 j k = w1' j k) (hb1 : ∀ k, b1 k = b1' k)
    (h2 : ∀ k p, w2 k p = w2' k p) (hb2 : ∀ p, b2 p = b2' p) (hq : q = q') :
    Cert.Spec.mlp s w1 b1 w2 b2 q = Cert.Spec.mlp s' w1' b1' w2' b2' q' := by
  subst hq
  rw [show s = s' from funext hs, show w1 = w1' from funext fun j => funext (h1 j), show b1 = b1' from funext hb1,
    show w2 = w2' from funext fun k => funext (h2 k), show b2 = b2' from funext hb2]

/-! ## What a point writes back -/

/-- WHAT POINT `t` WRITES BACK — the rows of its result block that lie inside the array — is block `t` of the
    perceptron applied to every row of the edge array: row `r` of the block (below the cut) is the perceptron of
    row `r` of the edge buffer, which is the edge array's row `8192 t + r`, with the whole weights and biases. -/
theorem flushed5_eq (c : Dev nD) (t : Fin cfg0.N) :
    (dats m 0 c).flushed 5 t = ((cfg0.win 5).blk t).view.read (Elt Ideal)
      (Cert.Spec.G (V m c main_v21) (V m c main_v23) (V m c main_arg3) (V m c main_v25) (V m c main_arg5)) := by
  show (cfg0.win 5).cut (grid0.coords t) ((dats m 0 c).after 5 t) = _
  rw [after0_5]
  funext j
  obtain ⟨e0, e1, -, -, x0, x1, -, -⟩ := idx_facts t
  have hj0 : (j 0).val < min 8192 (600000 - t.val * 8192) := lt_of_lt_of_eq (j 0).isLt x0
  have hj1 : (j 1).val < 128 := lt_of_lt_of_eq (j 1).isLt x1
  have h8 : (j 0).val < 8192 := by omega
  have hxi : win0_5.xinj (grid0.coords t) j = ix2 (⟨(j 0).val, h8⟩ : Fin 8192) (⟨(j 1).val, hj1⟩ : Fin 128) := by
    funext a; match a with | ⟨0, _⟩ => rfl | ⟨1, _⟩ => rfl
  show k0_pay1 (F := Ideal) _ _ _ _ _ (win0_5.xinj (grid0.coords t) j)
    = Cert.Spec.G (V m c main_v21) (V m c main_v23) (V m c main_arg3) (V m c main_v25) (V m c main_arg5) (((cfg0.win 5).blk t).view.emb j)
  rw [hxi]
  refine (pay_apply _ _ _ _ _ _ _).trans ?_
  unfold Cert.Spec.G
  refine mlp_congr6 (fun j' => sblk_apply m c t _ j' _ hj0 ?_) (fun a b => iblk1_apply m c t a b) (fun k => iblk2_apply m c t k)
    (fun k p => iblk3_apply m c t k p) (fun p => iblk4_apply m c t p) (Fin.ext ?_)
  · show win0_5.index t (0 : Fin 2) * 8192 + 1 * (j 0).val = t.val * 8192 + (j 0).val; omega
  · show (j 1).val = win0_5.index t (1 : Fin 2) * 128 + 1 * (j 1).val; omega

/-! ## The blocks cover the array -/

/-- An index of the result array is in point `t`'s block iff each coordinate is among the block's coordinates inside
    the array on its axis. -/
theorem mem_blk5 (t : Fin cfg0.N) (i : S600000x128.Idx) :
    i ∈ ((cfg0.win 5).blk t).view.set ↔ ∀ a : Fin 2, win0_5.index t a * S8192x128.size a ≤ (i a).val
      ∧ (i a).val < win0_5.index t a * S8192x128.size a + win0_5.xsize (grid0.coords t) a := by
  show i ∈ ((View.whole main_v26).slice (win0_5.rect t)).set ↔ _
  rw [View.set_slice_whole, Rect.mem_set_unit]
  exact Iff.rfl

/-- Row `i 0` lies in the block of point `(i 0) / 8192` (74 · 8192 ≥ 600000, and the last block keeps its rows up to
    the array's end), every column in every block. -/
theorem cover5 (i : S600000x128.Idx) :
    ∃ t : Fin cfg0.N, (cfg0.win 5).flush t = true ∧ i ∈ ((cfg0.win 5).blk t).view.set := by
  have hi0 : (i 0).val < 600000 := idx2_lt0 i
  have hi1 : (i 1).val < 128 := idx2_lt1 i
  have ht : (i 0).val / 8192 < cfg0.N := by
    show _ < grid0.N
    rw [N_0]; omega
  refine ⟨⟨(i 0).val / 8192, ht⟩, flush0_5 _, (mem_blk5 _ i).mpr ?_⟩
  obtain ⟨e0, e1, -, -, x0, x1, -, -⟩ := idx_facts ⟨(i 0).val / 8192, ht⟩
  intro a
  match a with
  | ⟨0, _⟩ =>
    show win0_5.index ⟨(i 0).val / 8192, ht⟩ (0 : Fin 2) * 8192 ≤ (i 0).val
      ∧ (i 0).val < win0_5.index ⟨(i 0).val / 8192, ht⟩ (0 : Fin 2) * 8192 + win0_5.xsize (grid0.coords ⟨(i 0).val / 8192, ht⟩) (0 : Fin 2)
    rw [e0, x0]
    show (i 0).val / 8192 * 8192 ≤ (i 0).val ∧ (i 0).val < (i 0).val / 8192 * 8192 + min 8192 (600000 - (i 0).val / 8192 * 8192)
    omega
  | ⟨1, _⟩ =>
    show win0_5.index ⟨(i 0).val / 8192, ht⟩ (1 : Fin 2) * 128 ≤ (i 1).val
      ∧ (i 1).val < win0_5.index ⟨(i 0).val / 8192, ht⟩ (1 : Fin 2) * 128 + win0_5.xsize (grid0.coords ⟨(i 0).val / 8192, ht⟩) (1 : Fin 2)
    rw [e1, x1]
    omega

/-! ## The result array, and the run -/

/-- The result array after the run: every row of the edge array (as the region finds it) through the perceptron
    with the weights and biases as the region finds them. -/
theorem final (c : Dev nD) : (dats m 0 c).arrAt 5 cfg0.N
    = Cert.Spec.G (V m c main_v21) (V m c main_v23) (V m c main_arg3) (V m c main_v25) (V m c main_arg5) :=
  (dats m 0 c).arrAt_eq_of_cover 5 _ (fun t _ => flushed5_eq m c t) cover5

/-- The idealized kernel's run with its result named. -/
theorem run_value : θ_run defs (onTc (τ := τ) (main (F := Ideal))) ⟨m, fun _ => 0, ρ⟩ (fun r => ∀ c : Dev nD,
      r.2.mem ((c.tc : Thread nD τ).loc main_v26)
        = Cert.Spec.G (V m c main_v21) (V m c main_v23) (V m c main_arg3) (V m c main_v25) (V m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c)))⟩)
    (run_main m ρ)

end Cert.KernelIdeal.Hand

end
-- ==== Proof.RefSide.lean ====
import proofs.«420868_j88742614270550_3_alg».proof.Proof.Gen.ReferenceIdeal.Run
import proofs.«420868_j88742614270550_3_alg».proof.Proof.Gen.ReferenceIdeal.Read
import proofs.«420868_j88742614270550_3_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's result, on the extended reals, is the perceptron applied to every row of its gathered edge
    array `val_main_v18 x0 x1` with the transposed weights `val_main_v19 x2`, `val_main_v25 x4` and the biases. -/
theorem ref_eq_G (x0 : (⟨S100000x128, .f32⟩ : BufTy).Contents (Elt Ideal)) (x1 : (⟨S2x600000, .i32⟩ : BufTy).Contents (Elt Ideal))
    (x2 : (⟨S256x128, .f32⟩ : BufTy).Contents (Elt Ideal)) (x3 : (⟨S256, .f32⟩ : BufTy).Contents (Elt Ideal))
    (x4 : (⟨S128x256, .f32⟩ : BufTy).Contents (Elt Ideal)) (x5 : (⟨S128, .f32⟩ : BufTy).Contents (Elt Ideal)) :
    val_main_v31 (F := Ideal) x0 x1 x2 x3 x4 x5
      = Cert.Spec.G (val_main_v18 (F := Ideal) x0 x1) (val_main_v19 (F := Ideal) x2) x3 (val_main_v25 (F := Ideal) x4) x5 := by
  funext i
  unfold Cert.Spec.G Cert.Spec.mlp
  -- The outer layer at the element (i 0, i 1): one half times (the second product's element plus the bias b2 at i 1).
  rw [val_main_v31_apply, val_main_v30_apply, val_main_cst_apply, val_main_v29_apply, val_main_v26_apply,
    val_main_v28_apply, val_main_v27_apply]
  -- The two broadcasts of b2 read it at column i 1.
  have e5 : idx_main_v27 (idx_main_v28 i) = ix1 (i 1) :=
    funext fun a => Fin.ext (by match a with | ⟨0, _⟩ => rfl)
  -- The second product's right operand, the transposed W2, is read at (k, i 1).
  have e4 : ∀ k : Fin 256, ridx_main_v26 i k = ix2 k (i 1) := fun k =>
    funext fun a => Fin.ext (by match a with | ⟨0, _⟩ => rfl | ⟨1, _⟩ => rfl)
  rw [e5]
  simp only [Ideal.mulf_def, Ideal.addf_def, Ideal.ofBits_def]
  -- Both sides are one half times (a sum over the 256 hidden units plus the same bias): compare the summands.
  refine congrArg (_ * ·) (congrArg (· + _) (Finset.sum_congr rfl fun k _ => ?_))
  -- The two broadcasts of b1, read at (i 0, k), give b1 at k.
  have e3 : idx_main_v21 (idx_main_v22 (lidx_main_v26 i k)) = ix1 k :=
    funext fun a => Fin.ext (by match a with | ⟨0, _⟩ => rfl)
  -- The first product at (i 0, k) reads the edge row i 0 at column j and the transposed W1 at (j, k).
  have e1 : ∀ j : Fin 128, lidx_main_v20 (lidx_main_v26 i k) j = ix2 (i 0) j := fun j =>
    funext fun a => Fin.ext (by match a with | ⟨0, _⟩ => rfl | ⟨1, _⟩ => rfl)
  have e2 : ∀ j : Fin 128, ridx_main_v20 (lidx_main_v26 i k) j = ix2 j k := fun j =>
    funext fun a => Fin.ext (by match a with | ⟨0, _⟩ => rfl | ⟨1, _⟩ => rfl)
  -- The hidden unit k of row i 0: the maximum of (first product plus b1 at k) and zero.
  rw [val_main_v24_apply, val_main_call0_v0_apply, val_main_call0_cst_apply, val_main_v23_apply, val_main_v20_apply,
    val_main_v22_apply, val_main_v21_apply, e4 k, e3]
  simp only [Ideal.maximumf_def, Ideal.addf_def, Ideal.ofBits_def, e1, e2]
  -- What is left differs only in how the order and the arithmetic of the extended reals are named.
  rfl

end Cert.ReferenceIdeal.RefValue

end
-- ==== Proof.Bridge.lean ====
import proofs.«420868_j88742614270550_3_alg».proof.Defs
import proofs.«420868_j88742614270550_3_alg».proof.Proof.Gen.KernelIdeal.Frame
import proofs.«420868_j88742614270550_3_alg».proof.Proof.Gen.ReferenceIdeal.Read
import proofs.«420868_j88742614270550_3_alg».proof.Proof.Gen.Pre_finite_inputs
import Idealize.ShloMosaic.Lib.ValueIdx
import Idealize.ShloMosaic.Lib.ReduceAll
import Idealize.ShloMosaic.Lib.StableHlo.Predicate
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- A rank-zero shape has exactly one index. -/
instance subsingleton_scalar_idx : Subsingleton Cert.Pre_finite_inputs.S_.Idx :=
  ⟨fun a b => funext fun d => d.elim0⟩

/-- Under the precondition every edge endpoint is a non-negative word. -/
theorem idx_nonneg [Cert.Pre_finite_inputs.Facts] (h : Cert.Pre_KernelIdeal m) (c : Dev nD) (p : S2x600000.Idx) :
    0 ≤ (m ((c.tc : Thread nD τ).loc main_arg1) p).toInt := by
  -- the precondition at its one index: a conjunction of six words, each a conjunction over a whole array
  have e := congrFun (h c) ValueIdx.ix0
  dsimp only [Cert.Pre_finite_inputs.fn, Cert.Pre_finite_inputs.fn_part1] at e
  -- the last conjunct: the conjunction over all (row, edge) of "endpoint ≥ 0, signed"
  have e2 := (IntOp.andi_eq_one.1 e).2
  -- a conjunction over every index that is 1 is 1 at each index, in particular at p
  have e3 := Host.reduce_andi_all _ _ _ _ _ e2 p
  -- the signed comparison with the zero word, read back as an inequality of integers (the zero word reads 0)
  exact IntOp.cmpi_sge.1 e3

/-- The first layer's weights as the region finds them: the transposed argument (a change of format is the identity). -/
theorem V_w1_eq (c : Dev nD) :
    V m c main_v23 = Cert.ReferenceIdeal.Read.val_main_v19 (F := Ideal) (m ((c.tc : Thread nD τ).loc main_arg2)) := by
  -- the host operations that write this array: the transpose of the [256, 128] argument, then the change of format
  have e : (V m c main_v23 : FVec Ideal S128x256 .bf16)
      = (truncf (F := Ideal) .bf16 (transpose S128x256 [1, 0] (m ((c.tc : Thread nD τ).loc main_arg2) : FVec Ideal S256x128 .f32)
          transposes_S256x128_S128x256_1_0) bitsLt_bf16_f32 : FVec Ideal S128x256 .bf16) := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
  -- on the extended reals the change of format is the identity, and the reference's transpose is the same term
  exact e.trans rfl

/-- The second layer's likewise. -/
theorem V_w2_eq (c : Dev nD) :
    V m c main_v25 = Cert.ReferenceIdeal.Read.val_main_v25 (F := Ideal) (m ((c.tc : Thread nD τ).loc main_arg4)) := by
  -- the host operations that write this array: the transpose of the [128, 256] argument, then the change of format
  have e : (V m c main_v25 : FVec Ideal S256x128 .bf16)
      = (truncf (F := Ideal) .bf16 (transpose S256x128 [1, 0] (m ((c.tc : Thread nD τ).loc main_arg4) : FVec Ideal S128x256 .f32)
          transposes_S128x256_S256x128_1_0) bitsLt_bf16_f32 : FVec Ideal S256x128 .bf16) := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
  -- on the extended reals the change of format is the identity, and the reference's transpose is the same term
  exact e.trans rfl

end Cert.Bridge

end
-- ==== Proof.BridgeS.lean ====
import proofs.«420868_j88742614270550_3_alg».proof.Defs
import proofs.«420868_j88742614270550_3_alg».proof.Proof.Gen.KernelIdeal.Frame
import proofs.«420868_j88742614270550_3_alg».proof.Proof.Gen.ReferenceIdeal.Read
import proofs.«420868_j88742614270550_3_alg».proof.Proof.Gen.Pre_finite_inputs
import Idealize.ShloMosaic.Lib.ValueIdx
import Idealize.ShloMosaic.Lib.ReduceAll
import Idealize.ShloMosaic.Lib.StableHlo.Predicate
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## Words: clipping into the table before the wrap and the clamp changes nothing for a non-negative endpoint -/

/-- The clip of an endpoint word into `[0, 99999]` (signed). -/
def clipW (a : BitVec 32) : BitVec 32 := IntOp.minsi 99999#32 (IntOp.maxsi 0#32 a)

/-- The wrap of a negative endpoint word into a table of 100000 rows: `a + 100000` when `a < 0` (signed), else `a`. -/
def selW (a : BitVec 32) : BitVec 32 := Scalar.select (IntOp.cmpi .slt a 0#32) (IntOp.addi a 100000#32) a

theorem toInt_99999 : (99999#32 : BitVec 32).toInt = 99999 := by
  rw [BitVec.toInt_eq_toNat_of_lt (by rw [BitVec.toNat_ofNat]; omega), BitVec.toNat_ofNat]; rfl

theorem slt_zero_of_nonneg {a : BitVec 32} (h : 0 ≤ a.toInt) : a.slt 0#32 = false := by
  rw [BitVec.slt_eq_decide, BitVec.toInt_zero]; exact decide_eq_false (by omega)

/-- A non-negative word is not wrapped. -/
theorem selW_of_nonneg {a : BitVec 32} (h : 0 ≤ a.toInt) : selW a = a := by
  unfold selW Scalar.select IntOp.cmpi
  show (if BitVec.ofBool (a.slt 0#32) = 1 then _ else _) = a
  rw [slt_zero_of_nonneg h, if_neg (by decide)]

/-- The clip of a non-negative word is its signed minimum with 99999. -/
theorem clipW_of_nonneg {a : BitVec 32} (h : 0 ≤ a.toInt) :
    clipW a = if (99999 : Int) < a.toInt then 99999#32 else a := by
  have hmax : IntOp.maxsi 0#32 a = a := by
    unfold IntOp.maxsi
    rw [slt_zero_of_nonneg h, if_neg (by decide)]
  unfold clipW IntOp.minsi
  rw [hmax, BitVec.slt_eq_decide, toInt_99999]
  by_cases hc : (99999 : Int) < a.toInt
  · rw [if_pos hc, if_pos (decide_eq_true hc)]
  · rw [if_neg hc, if_neg (by rw [decide_eq_false hc]; decide)]

/-- THE WORD FACT. For a non-negative endpoint word, the start row a gather clamps into `[0, 99999]` is the same
    whether or not the word was clipped into `[0, 99999]` first. -/
theorem clamp_sel_clip {a : BitVec 32} (h : 0 ≤ a.toInt) :
    min (selW (clipW a)).toInt.toNat 99999 = min (selW a).toInt.toNat 99999 := by
  rw [selW_of_nonneg h, clipW_of_nonneg h]
  by_cases hc : (99999 : Int) < a.toInt
  · rw [if_pos hc, selW_of_nonneg (by rw [toInt_99999]; omega), toInt_99999]
    omega
  · rw [if_neg hc, selW_of_nonneg h]

/-! ## A gather reads its start indices only through the clamped start row -/

/-- Two arrays of start indices whose words clamp to the same start coordinate on every operand axis gather the
    same elements. -/
theorem gather_congr_clamp {α : Type} {s si t : Shape} (d : GatherDims s si t) {w : Nat} (x : s.Idx → α) (idx idx' : IVec si w)
    (h : ∀ (p : si.Idx) (a : Fin s.rank), min (idx p).toInt.toNat (s.size a - d.sliceSizes a) = min (idx' p).toInt.toNat (s.size a - d.sliceSizes a)) :
    Host.gather d x idx = Host.gather d x idx' := by
  funext j
  unfold Host.gather
  congr 1
  funext a
  refine Fin.ext ?_
  show d.start j idx a + _ + _ = d.start j idx' a + _ + _
  unfold GatherDims.start
  split
  · rw [h]
  · rfl

/-! ## The reference's two arrays of start indices, read at a position -/

open Cert.ReferenceIdeal.Read in
/-- The reference's first array of start indices at `p`: the wrapped first endpoint of edge `p 0`. -/
theorem ref_idx0_apply (E : (⟨Cert.ReferenceIdeal.S2x600000, .i32⟩ : BufTy).Contents (Elt Ideal)) (p : Cert.ReferenceIdeal.S600000x1.Idx) :
    val_main_v7 (F := Ideal) E p = selW (val_main_v1 (F := Ideal) E (idx_main_v7 p)) := by
  rw [val_main_v7_apply, val_main_v6_apply, val_main_v3_apply, val_main_v5_apply, val_main_v2_apply, val_main_v4_apply]
  rfl

open Cert.ReferenceIdeal.Read in
/-- The reference's second array of start indices at `p`: the wrapped second endpoint of edge `p 0`. -/
theorem ref_idx1_apply (E : (⟨Cert.ReferenceIdeal.S2x600000, .i32⟩ : BufTy).Contents (Elt Ideal)) (p : Cert.ReferenceIdeal.S600000x1.Idx) :
    val_main_v16 (F := Ideal) E p = selW (val_main_v10 (F := Ideal) E (idx_main_v16 p)) := by
  rw [val_main_v16_apply, val_main_v15_apply, val_main_v12_apply, val_main_v14_apply, val_main_v11_apply, val_main_v13_apply]
  rfl

open Cert.ReferenceIdeal.Read in
/-- Every first endpoint is an entry of the edge array. -/
theorem ref_e0_nonneg (E : (⟨Cert.ReferenceIdeal.S2x600000, .i32⟩ : BufTy).Contents (Elt Ideal)) (hE : ∀ p, 0 ≤ (E p).toInt)
    (q : Cert.ReferenceIdeal.S600000.Idx) : 0 ≤ (val_main_v1 (F := Ideal) E q).toInt := by
  rw [val_main_v1_apply, val_main_v0_apply]; exact hE _

open Cert.ReferenceIdeal.Read in
/-- Every second endpoint is an entry of the edge array. -/
theorem ref_e1_nonneg (E : (⟨Cert.ReferenceIdeal.S2x600000, .i32⟩ : BufTy).Contents (Elt Ideal)) (hE : ∀ p, 0 ≤ (E p).toInt)
    (q : Cert.ReferenceIdeal.S600000.Idx) : 0 ≤ (val_main_v10 (F := Ideal) E q).toInt := by
  rw [val_main_v10_apply, val_main_v9_apply]; exact hE _

/-! ## The kernel's host prefix: the edge array the region finds, as a term -/

/-- A row of endpoint words clipped into `[0, 99999]`, as the kernel's host prefix computes it. -/
def kClip (e : IVec S600000 32) : IVec S600000 32 :=
  minsi (broadcastInDim S600000 ![] bcast_S_S600000 (constantI S_ 32 99999#32))
    (maxsi (broadcastInDim S600000 ![] bcast_S_S600000 (constantI S_ 32 0#32)) e)

/-- The column of start indices the kernel's host prefix makes of a row of endpoint words: clipped, wrapped, then
    laid along the first axis of a `600000 × 1` array. -/
def kIdx (e : IVec S600000 32) : IVec S600000x1 32 :=
  broadcastInDim S600000x1 ![0] bcast_S600000_S600000x1_0
    (select (cmpi .slt (kClip e) (broadcastInDim S600000 ![] bcast_S_S600000 (constantI S_ 32 0#32)))
      (addi (kClip e) (broadcastInDim S600000 ![] bcast_S_S600000 (constantI S_ 32 100000#32))) (kClip e))

/-- Row `r` of the edge array as the kernel's host prefix cuts it out: a slice, reshaped to a vector. -/
def kRow0 (E : IVec S2x600000 32) : IVec S600000 32 :=
  shapeCast S600000 (extractStridedSlice S1x600000 ![0, 0] E slices_S2x600000_S1x600000_0_0) shapeCasts_S1x600000_S600000
def kRow1 (E : IVec S2x600000 32) : IVec S600000 32 :=
  shapeCast S600000 (extractStridedSlice S1x600000 ![1, 0] E slices_S2x600000_S1x600000_1_0) shapeCasts_S1x600000_S600000

set_option maxHeartbeats 4000000 in
/-- The edge array the region finds: the two gathers at the clipped and wrapped endpoints, summed (the change of
    float format is the identity on the extended reals). -/
theorem V_s_term (c : Dev nD) :
    (V m c main_v21 : S600000x128.Idx → EReal) =
      truncf (F := Ideal) .bf16
        (addf (F := Ideal)
          (Host.gather gather_S100000x128_S600000x1_S600000x128_1_0_n_n_0_1_1128 (m ((c.tc : Thread nD τ).loc main_arg0))
            (kIdx (kRow0 (m ((c.tc : Thread nD τ).loc main_arg1)))))
          (Host.gather gather_S100000x128_S600000x1_S600000x128_1_0_n_n_0_1_1128 (m ((c.tc : Thread nD τ).loc main_arg0))
            (kIdx (kRow1 (m ((c.tc : Thread nD τ).loc main_arg1))))))
        bitsLt_bf16_f32 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- The kernel's column of start indices at `p`: the clipped, then wrapped, endpoint word of edge `p 0`. -/
theorem kIdx_apply (e : IVec S600000 32) (p : S600000x1.Idx) (q : S600000.Idx) (hq : (q 0).val = (p 0).val) :
    kIdx e p = selW (clipW (e q)) := by
  unfold kIdx
  rw [broadcastInDim_apply ![0] bcast_S600000_S600000x1_0 _ p q (fun a => match a with
    | ⟨0, _⟩ => by show (q 0).val = if (600000 : Nat) = 1 then 0 else (p 0).val; rw [if_neg (by decide)]; exact hq)]
  rfl

/-- The edge array the region finds (the two gathers of the clipped endpoints, summed) is the reference's gathered
    edge array, when every endpoint is non-negative: clipping into [0, 99999] and then clamping the gather's start
    row into the table is clamping alone. -/
theorem V_s_eq (c : Dev nD) (hpos : ∀ p : S2x600000.Idx, 0 ≤ (m ((c.tc : Thread nD τ).loc main_arg1) p).toInt) :
    V m c main_v21 = Cert.ReferenceIdeal.Read.val_main_v18 (F := Ideal)
      (m ((c.tc : Thread nD τ).loc main_arg0)) (m ((c.tc : Thread nD τ).loc main_arg1)) := by
  refine (V_s_term m c).trans ?_
  -- the first gather: on the row axis both start words clamp to the same row; on the column axis the bound is 0
  have h0 : Host.gather gather_S100000x128_S600000x1_S600000x128_1_0_n_n_0_1_1128 (m ((c.tc : Thread nD τ).loc main_arg0))
        (kIdx (kRow0 (m ((c.tc : Thread nD τ).loc main_arg1))))
      = Cert.ReferenceIdeal.Read.val_main_v8 (F := Ideal) (m ((c.tc : Thread nD τ).loc main_arg0)) (m ((c.tc : Thread nD τ).loc main_arg1)) := by
    unfold Cert.ReferenceIdeal.Read.val_main_v8
    refine gather_congr_clamp _ _ _ _ (fun p a => ?_)
    rw [kIdx_apply _ p (Cert.ReferenceIdeal.Read.idx_main_v7 p) rfl, ref_idx0_apply]
    match a with
    | ⟨0, _⟩ =>
      show min _ 99999 = min _ 99999
      exact clamp_sel_clip (ref_e0_nonneg _ hpos _)
    | ⟨1, _⟩ =>
      show min _ 0 = min _ 0
      rw [Nat.min_zero, Nat.min_zero]
  have h1 : Host.gather gather_S100000x128_S600000x1_S600000x128_1_0_n_n_0_1_1128 (m ((c.tc : Thread nD τ).loc main_arg0))
        (kIdx (kRow1 (m ((c.tc : Thread nD τ).loc main_arg1))))
      = Cert.ReferenceIdeal.Read.val_main_v17 (F := Ideal) (m ((c.tc : Thread nD τ).loc main_arg0)) (m ((c.tc : Thread nD τ).loc main_arg1)) := by
    unfold Cert.ReferenceIdeal.Read.val_main_v17
    refine gather_congr_clamp _ _ _ _ (fun p a => ?_)
    rw [kIdx_apply _ p (Cert.ReferenceIdeal.Read.idx_main_v16 p) rfl, ref_idx1_apply]
    match a with
    | ⟨0, _⟩ =>
      show min _ 99999 = min _ 99999
      exact clamp_sel_clip (ref_e1_nonneg _ hpos _)
    | ⟨1, _⟩ =>
      show min _ 0 = min _ 0
      rw [Nat.min_zero, Nat.min_zero]
  funext i
  show FloatOps.addf (F := Ideal) _ _ = FloatOps.addf (F := Ideal) _ _
  rw [h0, h1]

end Cert.Bridge

end
-- ==== Proof.lean ====
/-
  The certificate of the GIN edge perceptron: the Pallas kernel against its jnp reference.

  Both programs compute, for each of the 600000 edges `e` with endpoints `i0 e`, `i1 e`,
      out[e, :] = ½ · (relu ((x[i0 e] + x[i1 e]) · W1ᵀ + b1) · W2ᵀ + b2).
  The reference does it whole on the host; the kernel gathers and sums the endpoint rows on the host, then runs
  the two matrix products block by block: 74 blocks of 8192 edges, the last one overhanging the 600000 rows by
  6208, so that its fetch and its write-back are cut at the array's end.

  What is proved, under the precondition that the float inputs are finite and every endpoint is non-negative
  (the kernel clips an endpoint into [0, 99999] where the reference lets a negative one wrap to the table's end:
  on a negative endpoint the two read different rows; at or above 100000 both read the last row, since the gather
  clamps its start row into the table, so no upper bound is asked):
  * the three frames — each program runs to the end, faults nowhere and leaves its arguments unchanged;
  * the idealized kernel is the kernel's own text read on the extended reals (no rewrite was applied);
  * on the extended reals the two results are equal.  The kernel's result array holds, row by row, the
    perceptron `Cert.Spec.mlp` of the edge array the region finds (block `t` writes rows 8192·t …, the cut
    last block only its 1984 rows inside the array, and a row of the result depends on that row of the edge
    block alone, so the junk rows past the array's end never reach the array); the reference's result is the
    same function `Cert.Spec.G` of its own gathered edge array; and the two edge arrays agree because, for a
    non-negative endpoint, clipping and then clamping is clamping.  No algebraic law joins the two sides:
    the sums and products are the same, in the same order of operands, so finiteness is never used.
-/
import proofs.«420868_j88742614270550_3_alg».proof.Defs
import proofs.«420868_j88742614270550_3_alg».proof.Proof.Gen.Kernel
import proofs.«420868_j88742614270550_3_alg».proof.Proof.Gen.KernelIdeal
import proofs.«420868_j88742614270550_3_alg».proof.Proof.Gen.ReferenceIdeal
import proofs.«420868_j88742614270550_3_alg».proof.Proof.Gen.ReferenceIdeal.Run
import proofs.«420868_j88742614270550_3_alg».proof.Proof.Gen.ReferenceIdeal.Read
import proofs.«420868_j88742614270550_3_alg».proof.Proof.Gen.Pre_finite_inputs
import proofs.«420868_j88742614270550_3_alg».proof.Proof.FrameK
import proofs.«420868_j88742614270550_3_alg».proof.Proof.RunI
import proofs.«420868_j88742614270550_3_alg».proof.Proof.FinalI
import proofs.«420868_j88742614270550_3_alg».proof.Proof.RefSide
import proofs.«420868_j88742614270550_3_alg».proof.Proof.Bridge
import proofs.«420868_j88742614270550_3_alg».proof.Proof.BridgeS
import Idealize.ShloMosaic.Adequacy
import Idealize.ShloMosaic.Init

noncomputable section

namespace Cert.Proof

open Idealize.ShloMosaic Idealize.ShloMosaic.TcCoe Idealize.SL.Sem

/-- The word-level kernel's frame. -/
theorem frame_k : Cert.frame_Kernel (hPre_finite_inputs := Cert.Pre_finite_inputs.Gen.facts) :=
  fun m ρ _ => Cert.Kernel.Hand.frame m ρ

/-- The idealized kernel's frame. -/
theorem frame_ki : Cert.frame_KernelIdeal (hPre_finite_inputs := Cert.Pre_finite_inputs.Gen.facts) :=
  fun m ρ _ => Cert.KernelIdeal.Hand.frame m ρ

/-- The reference's frame: its run with the result dropped. -/
theorem frame_ri : Cert.frame_ReferenceIdeal (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The two results are equal on the extended reals: both are the perceptron of every row of one edge array. -/
theorem algebraic : Cert.algebraic_KernelIdeal_ReferenceIdeal (hPre_finite_inputs := Cert.Pre_finite_inputs.Gen.facts) := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  have hpos := fun p => Cert.Bridge.idx_nonneg m hpre c p
  rw [(hagree c).1, (hagree c).2.1, (hagree c).2.2.1, (hagree c).2.2.2.1, (hagree c).2.2.2.2.1, (hagree c).2.2.2.2.2,
    Cert.ReferenceIdeal.Read.val_main_v31_eq, Cert.ReferenceIdeal.RefValue.ref_eq_G,
    Cert.Bridge.V_s_eq m c hpos, Cert.Bridge.V_w1_eq m c, Cert.Bridge.V_w2_eq m c,
    Cert.KernelIdeal.Gen.V_main_arg3 m c, Cert.KernelIdeal.Gen.V_main_arg5 m c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
